-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 66
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S_, .f32⟩
  | .hbm, ⟨53, _⟩ => ⟨S1600000, .f32⟩
  | .hbm, ⟨54, _⟩ => ⟨S_, .f32⟩
  | .hbm, ⟨55, _⟩ => ⟨S100000, .f32⟩
  | .hbm, ⟨56, _⟩ => ⟨S1600000x1, .i32⟩
  | .hbm, ⟨57, _⟩ => ⟨S100000, .f32⟩
  | .hbm, ⟨58, _⟩ => ⟨S_, .f32⟩
  | .hbm, ⟨59, _⟩ => ⟨S100000, .f32⟩
  | .hbm, ⟨60, _⟩ => ⟨S100000, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.MeanAggregate.lean ====
/-
  The mean aggregation over edges, as one function of a feature array and the two edge-endpoint vectors.

  For node features `H` ([100000, 128]), source ids `src` and target ids `dst` ([1600000] each): a negative source
  id has 100000 added; the rows `H[src]` are gathered, summed into their target rows, and each target row is divided
  by the number of edges into it, or by one where there is none:
      meanAgg H src dst = segment_sum (H[src], dst) / max (segment_sum (1, dst), 1).
  Both layers of both programs aggregate by exactly this chain of host operations; the proofs carry it as this one
  function and never open it.
-/
import proofs.«142826_j17738214933082_1_alg».proof.Proof.Gen.KernelIdeal
import Idealize.ShloMosaic.PureOps.Ideal

noncomputable section

namespace Cert.KernelIdeal.MeanAggregate

open Cert.KernelIdeal Cert.KernelIdeal.Gen Idealize.ShloMosaic

/-- Row `r` of the edge list, as a vector: its slice, reshaped. -/
def edgeRow0 (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000
def edgeRow1 (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- The mean of the gathered source rows over each target. -/
def meanAgg (H : (⟨S100000x128, .f32⟩ : BufTy).Contents (Elt Ideal)) (src dst : (⟨S1600000, .i32⟩ : BufTy).Contents (Elt Ideal)) :
    (⟨S100000x128, .f32⟩ : BufTy).Contents (Elt Ideal) :=
  Host.divf
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 H
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant (F := Ideal) S_ .f32 0x00000000#32))
            (broadcastInDim S1600000x1 ![0] bcast_S1600000_S1600000x1_0 dst)
            (broadcastInDim S1600000 ![] bcast_S_S1600000 (constant (F := Ideal) S_ .f32 0x3F800000#32)))
          (broadcastInDim S100000 ![] bcast_S_S100000 (constant (F := Ideal) S_ .f32 0x3F800000#32)))))

end Cert.KernelIdeal.MeanAggregate

end
-- ==== Proof.Stretches.lean ====
/-
  What the two pallas_calls find in their operand arrays.

  Before the first call the host operations slice the edge list into its source and target rows, aggregate the node
  features over the edges (`meanAgg`) and reshape the first bias to a row; the call's other operands are arguments of
  the program as launched. Between the calls the host operations aggregate the first call's output over the same
  edges and reshape the second bias; the second call's other operands are the first call's output and arguments.
  Nothing between the launch and the second call writes an argument or the edge rows.
-/
import proofs.«142826_j17738214933082_1_alg».proof.Proof.Gen.KernelIdeal.Frame
import proofs.«142826_j17738214933082_1_alg».proof.Proof.MeanAggregate

set_option maxRecDepth 16384

noncomputable section

namespace Cert.KernelIdeal.Stretches

open Cert.KernelIdeal Cert.KernelIdeal.Gen Cert.KernelIdeal.MeanAggregate
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Before the first call -/

theorem first_agg (c : Dev nD) :
    V1 m ρ c main_v22 = meanAgg (m ((c : Thread nD τ).loc main_arg0)) (edgeRow0 (m ((c : Thread nD τ).loc main_arg1)))
      (edgeRow1 (m ((c : Thread nD τ).loc main_arg1))) := by
  show StableHlo.after hostOps0 (W0 m ρ c) (Proc.devRef .tc main_v22) = _
  dsimp only [hostOps0]
  after_results_simp
  rfl

theorem first_x (c : Dev nD) : V1 m ρ c main_arg0 = m ((c : Thread nD τ).loc main_arg0) := by
  show StableHlo.after hostOps0 (W0 m ρ c) (Proc.devRef .tc main_arg0) = _
  dsimp only [hostOps0]
  after_results_simp
theorem first_wl (c : Dev nD) : V1 m ρ c main_arg2 = m ((c : Thread nD τ).loc main_arg2) := by
  show StableHlo.after hostOps0 (W0 m ρ c) (Proc.devRef .tc main_arg2) = _
  dsimp only [hostOps0]
  after_results_simp
theorem first_wr (c : Dev nD) : V1 m ρ c main_arg3 = m ((c : Thread nD τ).loc main_arg3) := by
  show StableHlo.after hostOps0 (W0 m ρ c) (Proc.devRef .tc main_arg3) = _
  dsimp only [hostOps0]
  after_results_simp
/-- The first bias, reshaped to a row. -/
theorem first_bias (c : Dev nD) :
    V1 m ρ c main_v23 = shapeCast S1x128 (m ((c : Thread nD τ).loc main_arg4)) shapeCasts_S128_S1x128 := by
  show StableHlo.after hostOps0 (W0 m ρ c) (Proc.devRef .tc main_v23) = _
  dsimp only [hostOps0]
  after_results_simp
  rfl
/-- The edge rows the first stretch leaves. -/
theorem sources (c : Dev nD) : W1 m ρ c (Proc.devRef .tc main_v1) = edgeRow0 (m ((c : Thread nD τ).loc main_arg1)) := by
  show StableHlo.after hostOps0 (W0 m ρ c) (Proc.devRef .tc main_v1) = _
  dsimp only [hostOps0]
  after_results_simp
  rfl
theorem targets (c : Dev nD) : W1 m ρ c (Proc.devRef .tc main_v3) = edgeRow1 (m ((c : Thread nD τ).loc main_arg1)) := by
  show StableHlo.after hostOps0 (W0 m ρ c) (Proc.devRef .tc main_v3) = _
  dsimp only [hostOps0]
  after_results_simp
  rfl
theorem launched5 (c : Dev nD) : W1 m ρ c (Proc.devRef .tc main_arg5) = m ((c : Thread nD τ).loc main_arg5) := by
  show StableHlo.after hostOps0 (W0 m ρ c) (Proc.devRef .tc main_arg5) = _
  dsimp only [hostOps0]
  after_results_simp
theorem launched6 (c : Dev nD) : W1 m ρ c (Proc.devRef .tc main_arg6) = m ((c : Thread nD τ).loc main_arg6) := by
  show StableHlo.after hostOps0 (W0 m ρ c) (Proc.devRef .tc main_arg6) = _
  dsimp only [hostOps0]
  after_results_simp
theorem launched7 (c : Dev nD) : W1 m ρ c (Proc.devRef .tc main_arg7) = m ((c : Thread nD τ).loc main_arg7) := by
  show StableHlo.after hostOps0 (W0 m ρ c) (Proc.devRef .tc main_arg7) = _
  dsimp only [hostOps0]
  after_results_simp

/-! ## The first call writes only its output -/

theorem kept_sources (c : Dev nD) : W2 m ρ c (Proc.devRef .tc main_v1) = edgeRow0 (m ((c : Thread nD τ).loc main_arg1)) :=
  (W2_of_ne m ρ c main_v1 (by decide)).trans (sources m ρ c)
theorem kept_targets (c : Dev nD) : W2 m ρ c (Proc.devRef .tc main_v3) = edgeRow1 (m ((c : Thread nD τ).loc main_arg1)) :=
  (W2_of_ne m ρ c main_v3 (by decide)).trans (targets m ρ c)
theorem kept5 (c : Dev nD) : W2 m ρ c (Proc.devRef .tc main_arg5) = m ((c : Thread nD τ).loc main_arg5) :=
  (W2_of_ne m ρ c main_arg5 (by decide)).trans (launched5 m ρ c)
theorem kept6 (c : Dev nD) : W2 m ρ c (Proc.devRef .tc main_arg6) = m ((c : Thread nD τ).loc main_arg6) :=
  (W2_of_ne m ρ c main_arg6 (by decide)).trans (launched6 m ρ c)
theorem kept7 (c : Dev nD) : W2 m ρ c (Proc.devRef .tc main_arg7) = m ((c : Thread nD τ).loc main_arg7) :=
  (W2_of_ne m ρ c main_arg7 (by decide)).trans (launched7 m ρ c)

/-! ## Between the calls -/

theorem second_agg (c : Dev nD) :
    V3 m ρ c main_v43 = meanAgg (W2 m ρ c (Proc.devRef .tc main_v24)) (W2 m ρ c (Proc.devRef .tc main_v1))
      (W2 m ρ c (Proc.devRef .tc main_v3)) := by
  show StableHlo.after hostOps1 (W2 m ρ c) (Proc.devRef .tc main_v43) = _
  dsimp only [hostOps1]
  after_results_simp
  rfl
theorem second_x (c : Dev nD) : V3 m ρ c main_v24 = W2 m ρ c (Proc.devRef .tc main_v24) := by
  show StableHlo.after hostOps1 (W2 m ρ c) (Proc.devRef .tc main_v24) = _
  dsimp only [hostOps1]
  after_results_simp
theorem second_wl (c : Dev nD) : V3 m ρ c main_arg5 = W2 m ρ c (Proc.devRef .tc main_arg5) := by
  show StableHlo.after hostOps1 (W2 m ρ c) (Proc.devRef .tc main_arg5) = _
  dsimp only [hostOps1]
  after_results_simp
theorem second_wr (c : Dev nD) : V3 m ρ c main_arg6 = W2 m ρ c (Proc.devRef .tc main_arg6) := by
  show StableHlo.after hostOps1 (W2 m ρ c) (Proc.devRef .tc main_arg6) = _
  dsimp only [hostOps1]
  after_results_simp
/-- The second bias, reshaped to a row. -/
theorem second_bias (c : Dev nD) :
    V3 m ρ c main_v44 = shapeCast S1x128 (W2 m ρ c (Proc.devRef .tc main_arg7)) shapeCasts_S128_S1x128 := by
  show StableHlo.after hostOps1 (W2 m ρ c) (Proc.devRef .tc main_v44) = _
  dsimp only [hostOps1]
  after_results_simp
  rfl

end Cert.KernelIdeal.Stretches

end
-- ==== Proof.LayerPayload.lean ====
/-
  One row block of a SAGE layer's linear stage, read entry by entry over the extended reals.

  A block holds 5000 rows of the aggregated features `a` and of the node features `x`, the two 128 x 128 weight
  matrices `wl`, `wr` and the bias row `b`. The body casts the four matrix operands to bf16 (the identity on
  extended reals), multiplies `a` by `wl` and `x` by `wr` into zero accumulators, adds the two products, adds the
  bias row broadcast over the rows, and (first layer only) takes the maximum with zero. So entry (p, q) of what it
  stores is
      (sum_k a(p,k) * wl(k,q)  +  sum_k x(p,k) * wr(k,q))  +  b(0,q)
  under `max · 0` in the first layer.
-/
import proofs.«142826_j17738214933082_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.LayerPayload

open Cert.KernelIdeal Cert.KernelIdeal.Gen Idealize.ShloMosaic Idealize.ShloMosaic.ValueIdx

/-! ## The block product's operand indices, coordinate by coordinate -/

/-- The left operand is read at the output's row. -/
theorem lhs_row (i : S5000x128.Idx) (s : dot_S5000x128_S128x128_S5000x128_1_0_0_1_n_n.contr.Idx) :
    (dot_S5000x128_S128x128_S5000x128_1_0_0_1_n_n.lhsIdx i s 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- ... and at the contraction coordinate in its column. -/
theorem lhs_col (i : S5000x128.Idx) (s : dot_S5000x128_S128x128_S5000x128_1_0_0_1_n_n.contr.Idx) :
    (dot_S5000x128_S128x128_S5000x128_1_0_0_1_n_n.lhsIdx i s 1).val = (s ⟨0, by decide⟩).val :=
  dot_S5000x128_S128x128_S5000x128_1_0_0_1_n_n.lhsIdx_val_of_single rfl i s
/-- The right operand is read at the contraction coordinate in its row. -/
theorem rhs_row (i : S5000x128.Idx) (s : dot_S5000x128_S128x128_S5000x128_1_0_0_1_n_n.contr.Idx) :
    (dot_S5000x128_S128x128_S5000x128_1_0_0_1_n_n.rhsIdx i s 0).val = (s ⟨0, by decide⟩).val :=
  dot_S5000x128_S128x128_S5000x128_1_0_0_1_n_n.rhsIdx_val_of_single rfl i s
/-- ... and at the output's column. -/
theorem rhs_col (i : S5000x128.Idx) (s : dot_S5000x128_S128x128_S5000x128_1_0_0_1_n_n.contr.Idx) :
    (dot_S5000x128_S128x128_S5000x128_1_0_0_1_n_n.rhsIdx i s 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of a [5000,128] x [128,128] product into the zero accumulator is the sum over k of
    a(p,k) * w(k,q). -/
theorem product_at {φ₁ φ₂ : FTy} (a : FVec Ideal S5000x128 φ₁) (w : FVec Ideal S128x128 φ₂) (p : Fin 5000) (q : Fin 128) :
    matmul dot_S5000x128_S128x128_S5000x128_1_0_0_1_n_n none a w (constant S5000x128 .f32 0x00000000#32) (ix2 p q)
      = ∑ k : Fin 128, a (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun d => Fin.ext (by
    match d with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun d => Fin.ext (by
    match d with
    | ⟨0, _⟩ => exact (rhs_row _ _).trans hk
    | ⟨1, _⟩ => exact rhs_col _ _)
  rw [el, er]

/-! ## The two bodies' stored values at an entry -/

/-- The linear stage at an entry: the two products' sums, added, plus the bias at the entry's column. -/
def linAt (a x : S5000x128.Idx → EReal) (wl wr : S128x128.Idx → EReal) (b : S1x128.Idx → EReal) (p : Fin 5000) (q : Fin 128) : EReal :=
  ((∑ k : Fin 128, a (ix2 p k) * wl (ix2 k q)) + ∑ k : Fin 128, x (ix2 p k) * wr (ix2 k q)) + b (ix2 (0 : Fin 1) q)

/-- First layer: the body stores `max (linear stage) 0`. -/
theorem relu_payload_at (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q) = max (linAt x0 x1 x2 x3 x4 p q) 0 := by
  unfold k0_pay1 linAt
  rw [maximumf_apply, addf_apply, addf_apply, product_at, product_at, broadcastTo_1b_ab_apply, broadcast_apply]
  simp only [truncf_apply, shapeCast_self]
  show max _ (Ideal.ofBits .f32 0x00000000#32) = _
  rw [Ideal.ofBits_zero_f32]

/-- Second layer: the body stores the linear stage itself. -/
theorem linear_payload_at (x0 x1 : Vec Ideal S5000x128 .f32) (x2 x3 : Vec Ideal S128x128 .f32) (x4 : Vec Ideal S1x128 .f32)
    (p : Fin 5000) (q : Fin 128) :
    k1_pay1 (F := Ideal) x0 x1 x2 x3 x4 (ix2 p q) = linAt x0 x1 x2 x3 x4 p q := by
  unfold k1_pay1 linAt
  rw [addf_apply, addf_apply, product_at, product_at, broadcastTo_1b_ab_apply]
  simp only [truncf_apply, shapeCast_self]

end Cert.KernelIdeal.LayerPayload

end
-- ==== Proof.SageLayer.lean ====
/-
  A SAGE layer's linear stage as one function of whole arrays, entry by entry over the extended reals.

  For aggregated features `A` and node features `X` (both [100000, 128]), weights `Wl`, `Wr` ([128, 128]) and a
  bias row `b` ([1, 128]) the layer's entry (n, j) is
      lin A X Wl Wr b (n, j) = (sum_k A(n,k) * Wl(k,j)  +  sum_k X(n,k) * Wr(k,j))  +  b(0,j),
  and the first layer is followed by `max · 0`. The same value, with the bias added BEFORE the second product, is
      (sum_k A(n,k) * Wl(k,j)  +  b(0,j))  +  sum_k X(n,k) * Wr(k,j):
  addition of extended reals is commutative and associative at every value, infinite ones included, so the two
  groupings agree with no finiteness assumption.
-/
import Idealize.ShloMosaic.Lib.ValueIdx
import Idealize.ShloMosaic.PureOps.Ideal

noncomputable section

namespace Cert.SageLayer

open Idealize.ShloMosaic Idealize.ShloMosaic.ValueIdx

/-- An index's row, as a number below 100000. -/
abbrev rowOf (i : (⟨2, ![100000, 128]⟩ : Shape).Idx) : Fin 100000 := ⟨(i 0).val, (i 0).isLt⟩
/-- An index's column, as a number below 128. -/
abbrev colOf (i : (⟨2, ![100000, 128]⟩ : Shape).Idx) : Fin 128 := ⟨(i 1).val, (i 1).isLt⟩

/-- The linear stage, bias last. -/
def lin (A X : (⟨2, ![100000, 128]⟩ : Shape).Idx → EReal) (Wl Wr : (⟨2, ![128, 128]⟩ : Shape).Idx → EReal)
    (b : (⟨2, ![1, 128]⟩ : Shape).Idx → EReal) : (⟨2, ![100000, 128]⟩ : Shape).Idx → EReal := fun i =>
  ((∑ k : Fin 128, A (ix2 (rowOf i) k) * Wl (ix2 k (colOf i))) + ∑ k : Fin 128, X (ix2 (rowOf i) k) * Wr (ix2 k (colOf i)))
    + b (ix2 (0 : Fin 1) (colOf i))

/-- The first layer: the linear stage under `max · 0`. -/
def linRelu (A X : (⟨2, ![100000, 128]⟩ : Shape).Idx → EReal) (Wl Wr : (⟨2, ![128, 128]⟩ : Shape).Idx → EReal)
    (b : (⟨2, ![1, 128]⟩ : Shape).Idx → EReal) : (⟨2, ![100000, 128]⟩ : Shape).Idx → EReal := fun i =>
  max (lin A X Wl Wr b i) 0

/-- The bias may be added before the second product: `(s + t) + b = (s + b) + t` on the extended reals. -/
theorem lin_bias_first (A X : (⟨2, ![100000, 128]⟩ : Shape).Idx → EReal) (Wl Wr : (⟨2, ![128, 128]⟩ : Shape).Idx → EReal)
    (b : (⟨2, ![1, 128]⟩ : Shape).Idx → EReal) (i : (⟨2, ![100000, 128]⟩ : Shape).Idx) :
    lin A X Wl Wr b i
      = ((∑ k : Fin 128, A (ix2 (rowOf i) k) * Wl (ix2 k (colOf i))) + b (ix2 (0 : Fin 1) (colOf i)))
        + ∑ k : Fin 128, X (ix2 (rowOf i) k) * Wr (ix2 k (colOf i)) := by
  unfold lin
  exact add_right_comm _ _ _

end Cert.SageLayer

end
-- ==== Proof.Layer1Array.lean ====
/-
  The first layer's output array after its pallas_call, as one function of the arrays the call finds.

  The call walks 20 grid points; point t stages rows 5000 t .. 5000 t + 4999 of the aggregated features and of the node
  features, the two weight matrices and the bias row whole, and writes back rows 5000 t .. 5000 t + 4999 of the output.
  What point t writes back is the first layer's whole-array function `linRelu` restricted to those rows: the body's
  entry (p, q) reads the staged rows at p, which are the arrays' rows 5000 t + p. The 20 row blocks tile the
  100000 rows, so the array ends holding `linRelu` of the entry arrays.
-/
import proofs.«142826_j17738214933082_1_alg».proof.Proof.Gen.KernelIdeal.Frame
import proofs.«142826_j17738214933082_1_alg».proof.Proof.LayerPayload
import proofs.«142826_j17738214933082_1_alg».proof.Proof.SageLayer

set_option maxRecDepth 16384

noncomputable section

namespace Cert.KernelIdeal.Layer1Array

open Cert.KernelIdeal Cert.KernelIdeal.Gen Cert.KernelIdeal.LayerPayload Cert.SageLayer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-- The first layer of the arrays as the call finds them. -/
abbrev layer (c : Dev nD) : S100000x128.Idx → EReal :=
  linRelu (V c main_v22) (V c main_arg0) (V c main_arg2) (V c main_arg3) (V c main_v23)

/-- The printed index maps over the 20 points: the two row-blocked inputs and the output are at row block t, column
    block 0; the weights and the bias stay at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry (p, q) of what point t's body stores is the first layer at the output block's entry (p, q). -/
theorem stored_entry (c : Dev nD) (t : Fin cfg0.N) (j : S5000x128.Idx) :
    k0_pay1 (F := Ideal) (iblk0 V c 0 t) (iblk0 V c 1 t) (iblk0 V c 2 t) (iblk0 V c 3 t) (iblk0 V c 4 t) j
      = layer V c (((cfg0.win 5).blk t).view.emb j) := by
  obtain ⟨p, q, rfl⟩ : ∃ (p : Fin 5000) (q : Fin 128), j = ix2 p q := ⟨j 0, j 1, eq_ix2 j⟩
  obtain ⟨e00, e01, e10, e11, e20, e21, e30, e31, e40, e41, e50, e51⟩ := block_indices t
  refine (relu_payload_at _ _ _ _ _ p q).trans ?_
  show max _ 0 = max (lin (V c main_v22) (V c main_arg0) (V c main_arg2) (V c main_arg3) (V c main_v23)
    (((cfg0.win 5).blk t).view.emb (ix2 p q))) 0
  refine congrArg (fun z => max z 0) ?_
  -- the staged rows at p are the arrays' rows at the output block's row
  have hA : ∀ k : Fin 128, iblk0 V c 0 t (ix2 p k)
      = V c main_v22 (ix2 (rowOf (((cfg0.win 5).blk t).view.emb (ix2 p q))) k) := fun k => by
    show V c main_v22 (((cfg0.win 0).blk t).view.emb (ix2 p k)) = _
    refine congrArg _ (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  have hX : ∀ k : Fin 128, iblk0 V c 1 t (ix2 p k)
      = V c main_arg0 (ix2 (rowOf (((cfg0.win 5).blk t).view.emb (ix2 p q))) k) := fun k => by
    show V c main_arg0 (((cfg0.win 1).blk t).view.emb (ix2 p k)) = _
    refine congrArg _ (funext fun a => Fin.ext ?_)
    match a with
    | ⟨0, _⟩ => show win0_1.index t (0 : Fin 2) * 5000 + 1 * p.val = win0_5.index t (0 : Fin 2) * 5000 + 1 * p.val; omega
    | ⟨1, _⟩ => show win0_1.index t (1 : Fin 2) * 128 + 1 * k.val = k.val; omega
  -- the staged weights and bias are the whole arrays, read at the output block's column
  have hWl : ∀ k : Fin 128, iblk0 V c 2 t (ix2 k q)
      = V c main_arg2 (ix2 k (colOf (((cfg0.win 5).blk t).view.emb (ix2 p q)))) := fun k => by
    show V c main_arg2 (((cfg0.win 2).blk t).view.emb (ix2 k q)) = _
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  have hWr : ∀ k : Fin 128, iblk0 V c 3 t (ix2 k q)
      = V c main_arg3 (ix2 k (colOf (((cfg0.win 5).blk t).view.emb (ix2 p q)))) := fun k => by
    show V c main_arg3 (((cfg0.win 3).blk t).view.emb (ix2 k q)) = _
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q.val = win0_5.index t (1 : Fin 2) * 128 + 1 * q.val; omega
  have hb : iblk0 V c 4 t (ix2 (0 : Fin 1) q)
      = V c main_v23 (ix2 (0 : Fin 1) (colOf (((cfg0.win 5).blk t).view.emb (ix2 p q)))) := by
    show V c main_v23 (((cfg0.win 4).blk t).view.emb (ix2 (0 : Fin 1) q)) = _
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * q.val = win0_5.index t (1 : Fin 2) * 128 + 1 * q.val; omega
  unfold linAt lin
  rw [hb]
  refine congrArg (· + _) (congrArg₂ (· + ·) (Finset.sum_congr rfl fun k _ => ?_) (Finset.sum_congr rfl fun k _ => ?_))
  · rw [hA k, hWl k]
  · rw [hX k, hWr k]

/-- What point t writes back is block t of the first layer of the entry arrays. -/
theorem flushed_eq (c : Dev nD) (t : Fin cfg0.N) :
    (dat0 V c).flushed 5 t = ((cfg0.win 5).blk t).view.read (Elt Ideal) (layer V c) := by
  show (cfg0.win 5).cut (grid0.coords t) ((dat0 V c).after 5 t) = _
  rw [after0_5]
  unfold out0_5
  rw [View.canon_unit_zero offsets_zero]
  simp only [View.ld_unit_zero (S := S5000x128) offsets_zero, View.ld_unit_zero (S := S128x128) offsets_zero,
    View.ld_unit_zero (S := S1x128) offsets_zero]
  funext j
  exact stored_entry V c t j

/-- An index of the output array lies in point t's block iff each coordinate lies in the block's range. -/
theorem mem_block (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v24).slice (win0_5.rect t)).set ↔ _
  rw [View.set_slice_whole, Rect.mem_set_unit]
  exact Iff.rfl

/-- Row n lies in the block of point n / 5000: the 20 blocks tile the array. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have ht : (i 0).val / 5000 < grid0.N := by rw [N_0]; omega
  obtain ⟨-, -, -, -, -, -, -, -, -, -, e50, e51⟩ := block_indices ⟨(i 0).val / 5000, ht⟩
  refine ⟨⟨(i 0).val / 5000, ht⟩, flush0_5 _, ?_⟩
  rw [mem_block]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    rw [e51]; omega

/-- The output array after the call: the first layer of the arrays the call finds. -/
theorem array_eq (c : Dev nD) : (dat0 V c).arrAt 5 cfg0.N = layer V c :=
  (dat0 V c).arrAt_eq_of_cover 5 (layer V c) (fun t _ => flushed_eq V c t) covered

end Cert.KernelIdeal.Layer1Array

end
-- ==== Proof.Layer2Array.lean ====
/-
  The second layer's output array after its pallas_call, as one function of the arrays the call finds.

  As in the first call, point t of the 20 stages rows 5000 t .. 5000 t + 4999 of the aggregated hidden features and of
  the hidden features, the second layer's weight matrices and bias row whole, and writes back the same rows of the
  result. Its body stores the linear stage with no maximum after it, so what point t writes back is `lin` restricted
  to its rows, and the 20 row blocks tile the 100000 rows: the result array ends holding `lin` of the entry arrays.
-/
import proofs.«142826_j17738214933082_1_alg».proof.Proof.Gen.KernelIdeal.Frame
import proofs.«142826_j17738214933082_1_alg».proof.Proof.LayerPayload
import proofs.«142826_j17738214933082_1_alg».proof.Proof.SageLayer

set_option maxRecDepth 16384

noncomputable section

namespace Cert.KernelIdeal.Layer2Array

open Cert.KernelIdeal Cert.KernelIdeal.Gen Cert.KernelIdeal.LayerPayload Cert.SageLayer
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem offsets_zero : (![0, 0] : Fin 2 → Nat) = fun _ => 0 := funext fun a => by fin_cases a <;> rfl

/-- The second layer of the arrays as the call finds them. -/
abbrev layer (c : Dev nD) : S100000x128.Idx → EReal :=
  lin (V c main_v43) (V c main_v24) (V c main_arg5) (V c main_arg6) (V c main_v44)

/-- The printed index maps over the 20 points: the two row-blocked inputs and the output are at row block t, column
    block 0; the weights and the bias stay at block (0, 0). -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry (p, q) of what point t's body stores is the second layer at the output block's entry (p, q). -/
theorem stored_entry (c : Dev nD) (t : Fin cfg1.N) (j : S5000x128.Idx) :
    k1_pay1 (F := Ideal) (iblk1 V c 0 t) (iblk1 V c 1 t) (iblk1 V c 2 t) (iblk1 V c 3 t) (iblk1 V c 4 t) j
      = layer V c (((cfg1.win 5).blk t).view.emb j) := by
  obtain ⟨p, q, rfl⟩ : ∃ (p : Fin 5000) (q : Fin 128), j = ix2 p q := ⟨j 0, j 1, eq_ix2 j⟩
  obtain ⟨e00, e01, e10, e11, e20, e21, e30, e31, e40, e41, e50, e51⟩ := block_indices t
  refine (linear_payload_at _ _ _ _ _ p q).trans ?_
  show _ = lin (V c main_v43) (V c main_v24) (V c main_arg5) (V c main_arg6) (V c main_v44)
    (((cfg1.win 5).blk t).view.emb (ix2 p q))
  -- the staged rows at p are the arrays' rows at the output block's row
  have hA : ∀ k : Fin 128, iblk1 V c 0 t (ix2 p k)
      = V c main_v43 (ix2 (rowOf (((cfg1.win 5).blk t).view.emb (ix2 p q))) k) := fun k => by
    show V c main_v43 (((cfg1.win 0).blk t).view.emb (ix2 p k)) = _
    refine congrArg _ (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  have hX : ∀ k : Fin 128, iblk1 V c 1 t (ix2 p k)
      = V c main_v24 (ix2 (rowOf (((cfg1.win 5).blk t).view.emb (ix2 p q))) k) := fun k => by
    show V c main_v24 (((cfg1.win 1).blk t).view.emb (ix2 p k)) = _
    refine congrArg _ (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * k.val = k.val; omega
  -- the staged weights and bias are the whole arrays, read at the output block's column
  have hWl : ∀ k : Fin 128, iblk1 V c 2 t (ix2 k q)
      = V c main_arg5 (ix2 k (colOf (((cfg1.win 5).blk t).view.emb (ix2 p q)))) := fun k => by
    show V c main_arg5 (((cfg1.win 2).blk t).view.emb (ix2 k q)) = _
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * q.val = win1_5.index t (1 : Fin 2) * 128 + 1 * q.val; omega
  have hWr : ∀ k : Fin 128, iblk1 V c 3 t (ix2 k q)
      = V c main_arg6 (ix2 k (colOf (((cfg1.win 5).blk t).view.emb (ix2 p q)))) := fun k => by
    show V c main_arg6 (((cfg1.win 3).blk t).view.emb (ix2 k q)) = _
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * q.val = win1_5.index t (1 : Fin 2) * 128 + 1 * q.val; omega
  have hb : iblk1 V c 4 t (ix2 (0 : Fin 1) q)
      = V c main_v44 (ix2 (0 : Fin 1) (colOf (((cfg1.win 5).blk t).view.emb (ix2 p q)))) := by
    show V c main_v44 (((cfg1.win 4).blk t).view.emb (ix2 (0 : Fin 1) q)) = _
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * q.val = win1_5.index t (1 : Fin 2) * 128 + 1 * q.val; omega
  unfold linAt lin
  rw [hb]
  refine congrArg (· + _) (congrArg₂ (· + ·) (Finset.sum_congr rfl fun k _ => ?_) (Finset.sum_congr rfl fun k _ => ?_))
  · rw [hA k, hWl k]
  · rw [hX k, hWr k]

/-- What point t writes back is block t of the second layer of the entry arrays. -/
theorem flushed_eq (c : Dev nD) (t : Fin cfg1.N) :
    (dat1 V c).flushed 5 t = ((cfg1.win 5).blk t).view.read (Elt Ideal) (layer V c) := by
  show (cfg1.win 5).cut (grid1.coords t) ((dat1 V c).after 5 t) = _
  rw [after1_5]
  unfold out1_5
  rw [View.canon_unit_zero offsets_zero]
  simp only [View.ld_unit_zero (S := S5000x128) offsets_zero, View.ld_unit_zero (S := S128x128) offsets_zero,
    View.ld_unit_zero (S := S1x128) offsets_zero]
  funext j
  exact stored_entry V c t j

/-- An index of the result array lies in point t's block iff each coordinate lies in the block's range. -/
theorem mem_block (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v45).slice (win1_5.rect t)).set ↔ _
  rw [View.set_slice_whole, Rect.mem_set_unit]
  exact Iff.rfl

/-- Row n lies in the block of point n / 5000: the 20 blocks tile the array. -/
theorem covered (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have ht : (i 0).val / 5000 < grid1.N := by rw [N_1]; omega
  obtain ⟨-, -, -, -, -, -, -, -, -, -, e50, e51⟩ := block_indices ⟨(i 0).val / 5000, ht⟩
  refine ⟨⟨(i 0).val / 5000, ht⟩, flush1_5 _, ?_⟩
  rw [mem_block]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [e51]; omega

/-- The result array after the call: the second layer of the arrays the call finds. -/
theorem array_eq (c : Dev nD) : (dat1 V c).arrAt 5 cfg1.N = layer V c :=
  (dat1 V c).arrAt_eq_of_cover 5 (layer V c) (fun t _ => flushed_eq V c t) covered

end Cert.KernelIdeal.Layer2Array

end
-- ==== Proof.RefLayers.lean ====
/-
  The reference's stages, read as the layer functions.

  The reference computes each layer as (A · Wl + b) + X · Wr with the bias row broadcast over the rows, the first
  layer under max(·, 0); its aggregated features A are the mean aggregation of the layer's input over the edges.
  Entry by entry its two matrix products are sums over the 128 contraction coordinates, so each layer is the
  whole-array function `lin` (`linRelu` for the first) with the bias added first: `lin_bias_first`.
-/
import proofs.«142826_j17738214933082_1_alg».proof.Proof.Gen.ReferenceIdeal.Read
import proofs.«142826_j17738214933082_1_alg».proof.Proof.SageLayer
import proofs.«142826_j17738214933082_1_alg».proof.Proof.MeanAggregate
import Idealize.ShloMosaic.Lib.ValueLayout

noncomputable section

namespace Cert.ReferenceIdeal.RefLayers

open Cert.ReferenceIdeal Cert.ReferenceIdeal.Gen Cert.ReferenceIdeal.Read Cert.SageLayer
open Cert.KernelIdeal.MeanAggregate
open Idealize.ShloMosaic Idealize.ShloMosaic.ValueIdx

/-! ## The index maps of the generated stage lemmas, by coordinates -/

theorem lidx23 (i : S100000x128.Idx) (k : Fin 128) : lidx_main_v23 i k = ix2 (rowOf i) k :=
  funext fun a => Fin.ext (by match a with | ⟨0, _⟩ => rfl | ⟨1, _⟩ => rfl)
theorem ridx23 (i : S100000x128.Idx) (k : Fin 128) : ridx_main_v23 i k = ix2 k (colOf i) :=
  funext fun a => Fin.ext (by match a with | ⟨0, _⟩ => rfl | ⟨1, _⟩ => rfl)
theorem lidx27 (i : S100000x128.Idx) (k : Fin 128) : lidx_main_v27 i k = ix2 (rowOf i) k :=
  funext fun a => Fin.ext (by match a with | ⟨0, _⟩ => rfl | ⟨1, _⟩ => rfl)
theorem ridx27 (i : S100000x128.Idx) (k : Fin 128) : ridx_main_v27 i k = ix2 k (colOf i) :=
  funext fun a => Fin.ext (by match a with | ⟨0, _⟩ => rfl | ⟨1, _⟩ => rfl)
theorem lidx49 (i : S100000x128.Idx) (k : Fin 128) : lidx_main_v49 i k = ix2 (rowOf i) k :=
  funext fun a => Fin.ext (by match a with | ⟨0, _⟩ => rfl | ⟨1, _⟩ => rfl)
theorem ridx49 (i : S100000x128.Idx) (k : Fin 128) : ridx_main_v49 i k = ix2 k (colOf i) :=
  funext fun a => Fin.ext (by match a with | ⟨0, _⟩ => rfl | ⟨1, _⟩ => rfl)
theorem lidx53 (i : S100000x128.Idx) (k : Fin 128) : lidx_main_v53 i k = ix2 (rowOf i) k :=
  funext fun a => Fin.ext (by match a with | ⟨0, _⟩ => rfl | ⟨1, _⟩ => rfl)
theorem ridx53 (i : S100000x128.Idx) (k : Fin 128) : ridx_main_v53 i k = ix2 k (colOf i) :=
  funext fun a => Fin.ext (by match a with | ⟨0, _⟩ => rfl | ⟨1, _⟩ => rfl)
/-- The bias broadcast over the rows reads the bias vector at the entry's column. -/
theorem bias_idx1 (i : S100000x128.Idx) : idx_main_v24 (idx_main_v25 i) = ix1 (colOf i) :=
  funext fun a => Fin.ext (by match a with | ⟨0, _⟩ => rfl)
theorem bias_idx2 (i : S100000x128.Idx) : idx_main_v50 (idx_main_v51 i) = ix1 (colOf i) :=
  funext fun a => Fin.ext (by match a with | ⟨0, _⟩ => rfl)

/-! ## The two layers -/

/-- The reference's hidden features are the first layer of its first aggregation. -/
theorem relu_layer (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (h : S128.ShapeCasts S1x128) :
    val_main_v29 (F := Ideal) x0 x1 x2 x3 x4
      = linRelu (val_main_v22 (F := Ideal) x0 x1) x0 x2 x3 (shapeCast S1x128 x4 h) := by
  funext i
  rw [val_main_v29_apply, val_main_v28_apply, val_main_v26_apply, val_main_v23_apply, val_main_v27_apply,
    val_main_v25_apply, val_main_v24_apply, val_main_call0_v0_apply, val_main_call0_cst_apply]
  unfold linRelu
  rw [lin_bias_first, shapeCast_a_1a_apply]
  simp only [lidx23, ridx23, lidx27, ridx27, bias_idx1]
  show max _ (Ideal.ofBits .f32 0x00000000#32) = _
  rw [Ideal.ofBits_zero_f32]
  rfl

/-- The reference's result is the second layer of its second aggregation and its hidden features. -/
theorem out_layer (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (h : S128.ShapeCasts S1x128) :
    val_main_v54 (F := Ideal) x0 x1 x2 x3 x4 x5 x6 x7
      = lin (val_main_v48 (F := Ideal) x0 x1 x2 x3 x4) (val_main_v29 (F := Ideal) x0 x1 x2 x3 x4) x5 x6 (shapeCast S1x128 x7 h) := by
  funext i
  rw [val_main_v54_apply, val_main_v52_apply, val_main_v49_apply, val_main_v53_apply, val_main_v51_apply, val_main_v50_apply]
  rw [lin_bias_first, shapeCast_a_1a_apply]
  simp only [lidx49, ridx49, lidx53, ridx53, bias_idx2]
  rfl

/-! ## The aggregations -/

/-- The two edge rows, in either program's spelling. -/
theorem sources_eq (x1 : (⟨S2x1600000, .i32⟩ : BufTy).Contents (Elt Ideal)) : val_main_v1 (F := Ideal) x1 = edgeRow0 x1 := rfl
theorem targets_eq (x1 : (⟨S2x1600000, .i32⟩ : BufTy).Contents (Elt Ideal)) : val_main_v3 (F := Ideal) x1 = edgeRow1 x1 := rfl

/-- The first aggregation is the mean aggregation of the node features. -/
theorem first_agg (x0 : (⟨S100000x128, .f32⟩ : BufTy).Contents (Elt Ideal)) (x1 : (⟨S2x1600000, .i32⟩ : BufTy).Contents (Elt Ideal)) :
    val_main_v22 (F := Ideal) x0 x1 = meanAgg x0 (edgeRow0 x1) (edgeRow1 x1) := rfl

/-- The second aggregation is the mean aggregation of the hidden features. -/
theorem second_agg (x0 : (⟨S100000x128, .f32⟩ : BufTy).Contents (Elt Ideal)) (x1 : (⟨S2x1600000, .i32⟩ : BufTy).Contents (Elt Ideal))
    (x2 x3 : (⟨S128x128, .f32⟩ : BufTy).Contents (Elt Ideal)) (x4 : (⟨S128, .f32⟩ : BufTy).Contents (Elt Ideal)) :
    val_main_v48 (F := Ideal) x0 x1 x2 x3 x4 = meanAgg (val_main_v29 (F := Ideal) x0 x1 x2 x3 x4) (edgeRow0 x1) (edgeRow1 x1) := rfl

end Cert.ReferenceIdeal.RefLayers

end
-- ==== Proof.Bridge.lean ====
/-
  The kernel program's result is the reference's result, as functions of the launch arguments.

  After the first call its output array holds `linRelu` of what the call found: the mean aggregation of the node
  features, the node features, the first layer's weights and its bias as a row — which is the reference's hidden
  features stage. After the second call the result array holds `lin` of the mean aggregation of those hidden
  features, the hidden features, the second layer's weights and bias row — which is the reference's result stage.
  The only law between the two programs' arithmetic is the regrouping of the bias in each layer.
-/
import proofs.«142826_j17738214933082_1_alg».proof.Proof.Stretches
import proofs.«142826_j17738214933082_1_alg».proof.Proof.Layer1Array
import proofs.«142826_j17738214933082_1_alg».proof.Proof.Layer2Array
import proofs.«142826_j17738214933082_1_alg».proof.Proof.RefLayers

set_option maxRecDepth 16384

noncomputable section

namespace Cert.KernelIdeal.Bridge

open Cert.KernelIdeal Cert.KernelIdeal.Gen Cert.KernelIdeal.MeanAggregate Cert.SageLayer
open Idealize.ShloMosaic Idealize.ShloMosaic.TcCoe Idealize.SL.Sem

variable (m : (ℓ : Loc nD τ sig) → Buf (Elt Ideal) ℓ) (ρ : Dev nD → PrngReg)

/-- After the first call its output array is the reference's hidden features of the launch arguments. -/
theorem hidden_eq (c : Dev nD) :
    W2 m ρ c (Proc.devRef .tc main_v24)
      = Cert.ReferenceIdeal.Read.val_main_v29 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (W2_arr m ρ c 5).trans ((Layer1Array.array_eq (V1 m ρ) c).trans ?_)
  show linRelu (V1 m ρ c main_v22) (V1 m ρ c main_arg0) (V1 m ρ c main_arg2) (V1 m ρ c main_arg3) (V1 m ρ c main_v23) = _
  rw [Stretches.first_agg, Stretches.first_x, Stretches.first_wl, Stretches.first_wr, Stretches.first_bias]
  rw [Cert.ReferenceIdeal.RefLayers.relu_layer _ _ _ _ _ shapeCasts_S128_S1x128, Cert.ReferenceIdeal.RefLayers.first_agg]

/-- After the second call the result array is the reference's result of the launch arguments. -/
theorem result_eq (c : Dev nD) :
    W4 m ρ c (Proc.devRef .tc main_v45)
      = Cert.ReferenceIdeal.Read.val_main_v54 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine (W4_arr m ρ c 5).trans ((Layer2Array.array_eq (V3 m ρ) c).trans ?_)
  show lin (V3 m ρ c main_v43) (V3 m ρ c main_v24) (V3 m ρ c main_arg5) (V3 m ρ c main_arg6) (V3 m ρ c main_v44) = _
  rw [Stretches.second_agg, Stretches.second_x, Stretches.second_wl, Stretches.second_wr, Stretches.second_bias,
    Stretches.kept_sources, Stretches.kept_targets, Stretches.kept5, Stretches.kept6, Stretches.kept7, hidden_eq]
  rw [Cert.ReferenceIdeal.RefLayers.out_layer _ _ _ _ _ _ _ _ shapeCasts_S128_S1x128, Cert.ReferenceIdeal.RefLayers.second_agg]

end Cert.KernelIdeal.Bridge

end
-- ==== Proof.lean ====
/-
  A two-layer GraphSAGE network with mean aggregation: the Pallas program against its jnp reference, over the
  extended reals.

  Both programs aggregate each layer's input over the edges by the same host operations (gather the source rows,
  sum them into their target rows, divide by the edge count or by one). They differ only in the linear stage: the
  kernel computes each layer's row block as (A · Wl + X · Wr) + b on bf16-cast operands — the casts are the identity
  on extended reals — in 20 row blocks of 5000, the first layer under max(·, 0); the reference computes
  (A · Wl + b) + X · Wr on whole arrays. Addition of extended reals is commutative and associative at every value,
  so the two groupings agree with no use of the inputs' finiteness, and the row blocks tile the arrays.

  The three frames are the generated ones (the reference's is its generated run with the result dropped); the ideal
  pass rewrote nothing, so `preserves` is trivial; `algebraic` joins the kernel program's run, its result buffer
  read back through the two calls and the host operations around them, to the reference's run.
-/
import proofs.«142826_j17738214933082_1_alg».proof.Defs
import proofs.«142826_j17738214933082_1_alg».proof.Proof.Gen.Kernel
import proofs.«142826_j17738214933082_1_alg».proof.Proof.Gen.Kernel.Skeleton
import proofs.«142826_j17738214933082_1_alg».proof.Proof.Gen.Kernel.Launch
import proofs.«142826_j17738214933082_1_alg».proof.Proof.Gen.Kernel.Points
import proofs.«142826_j17738214933082_1_alg».proof.Proof.Gen.Kernel.Frame
import proofs.«142826_j17738214933082_1_alg».proof.Proof.Gen.KernelIdeal
import proofs.«142826_j17738214933082_1_alg».proof.Proof.Gen.KernelIdeal.Skeleton
import proofs.«142826_j17738214933082_1_alg».proof.Proof.Gen.KernelIdeal.Launch
import proofs.«142826_j17738214933082_1_alg».proof.Proof.Gen.KernelIdeal.Points
import proofs.«142826_j17738214933082_1_alg».proof.Proof.Gen.KernelIdeal.Frame
import proofs.«142826_j17738214933082_1_alg».proof.Proof.Gen.ReferenceIdeal
import proofs.«142826_j17738214933082_1_alg».proof.Proof.Gen.Pre_finite_inputs
import proofs.«142826_j17738214933082_1_alg».proof.Proof.Gen.ReferenceIdeal.Run
import proofs.«142826_j17738214933082_1_alg».proof.Proof.Gen.ReferenceIdeal.Read
import proofs.«142826_j17738214933082_1_alg».proof.Proof.KernelIdealResultRun
import proofs.«142826_j17738214933082_1_alg».proof.Proof.Bridge
import Idealize.ShloMosaic.Adequacy
import Idealize.ShloMosaic.Init

noncomputable section

namespace Cert.Proof

open Idealize.ShloMosaic Idealize.SL.Sem

/-- Both idealized programs end with the same result: the reference's last stage of the launch arguments. -/
theorem algebraic : Cert.algebraic_KernelIdeal_ReferenceIdeal := by
  intro m ρ m' ρ' _ hagree
  refine ⟨fun c => Cert.ReferenceIdeal.Read.val_main_v54 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Bridge.result_eq m ρ c), (h c).2⟩)
      (Cert.KernelIdeal.ResultRun.run (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v54_eq m' c).trans ?_
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
